-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S64x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S64x128 .f32) (main_arg3 : FVec F S128 .f32) (main_arg4 : FVec F S128 .f32) (main_arg5 : FVec F S128 .f32) (main_arg6 : FVec F S64x128 .f32) (main_arg7 : FVec F S128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S50000x128 : Shape := ⟨2, ![50000, 128]⟩
abbrev S5000x64 : Shape := ⟨2, ![5000, 64]⟩
abbrev S5000x128 : Shape := ⟨2, ![5000, 128]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S5000 : Shape := ⟨1, ![5000]⟩
abbrev S5000x1 : Shape := ⟨2, ![5000, 1]⟩

abbrev nBuf : Space → Nat
  | .hbm => 70
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S50000x128, .f32⟩
  | .hbm, ⟨9, _⟩ => ⟨S50000x128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x1, .f32⟩
  | .hbm, ⟨63, _⟩ => ⟨S850000x128, .f32⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S50000x128, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S64x128, .f32⟩
  | .local _ .vmem, ⟨4, _⟩ => ⟨S128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S128, .f32⟩
  | .local _ .vmem, ⟨15, _⟩ => ⟨S128, .f32⟩
  | .local _ .vmem, ⟨16, _⟩ => ⟨S5000x128, .f32⟩
  | .local _ .vmem, ⟨17, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_c_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x64_S64x128_S5000x128_1_0_0_1_n_n_wf : DotDims.WF S5000x64 S64x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x1 : Shape := ⟨2, ![50000, 1]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S_, .i32⟩
  | .hbm, ⟨53, _⟩ => ⟨S850000, .i32⟩
  | .hbm, ⟨54, _⟩ => ⟨S850000, .i1⟩
  | .hbm, ⟨55, _⟩ => ⟨S_, .i32⟩
  | .hbm, ⟨56, _⟩ => ⟨S850000, .i32⟩
  | .hbm, ⟨57, _⟩ => ⟨S850000, .i32⟩
  | .hbm, ⟨58, _⟩ => ⟨S850000, .i32⟩
  | .hbm, ⟨59, _⟩ => ⟨S850000x1, .i32⟩
  | .hbm, ⟨60, _⟩ => ⟨S850000x128, .f32⟩
  | .hbm, ⟨61, _⟩ => ⟨S850000x1, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S_, .f32⟩
  | .hbm, ⟨84, _⟩ => ⟨S50000x1, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S_, .f32⟩
  | .hbm, ⟨89, _⟩ => ⟨S50000x1, .f32⟩
  | .hbm, ⟨90, _⟩ => ⟨S50000x1, .f32⟩
  | .hbm, ⟨91, _⟩ => ⟨S50000x1, .f32⟩
  | .hbm, ⟨92, _⟩ => ⟨S50000x128, .f32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S50000x128, .f32⟩
  | .hbm, ⟨97, _⟩ => ⟨S1x128, .f32⟩
  | .hbm, ⟨98, _⟩ => ⟨S50000x128, .f32⟩
  | .hbm, ⟨99, _⟩ => ⟨S50000x128, .f32⟩
  | .hbm, ⟨100, _⟩ => ⟨S50000x128, .f32⟩
  | .hbm, ⟨101, _⟩ => ⟨S1x128, .f32⟩
  | .hbm, ⟨102, _⟩ => ⟨S50000x128, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S_, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x128, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x128_S50000x128_1_0_0_1_n_n_wf : DotDims.WF S50000x64 S64x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.Spec.lean ====
/-
  The residual graph-convolution block, entry by entry, on the extended reals.

  A node's feature row is projected by a weight matrix (a sum over the 64 input features), the projected rows are
  aggregated over the graph's edges with symmetric degree normalisation (an aggregation both programs spell with the
  same host operations, so it is carried as a parameter here), and each aggregated row is finished by

      a_k   = agg (p, k) + b k
      mean  = (Σ_k a_k) / 128
      var   = (Σ_k (a_k - mean)²) / 128
      y_q   = (a_q - mean) · (var + ε)^(-1/2) · ln_w q + ln_b q + res (p, q)
      out   = y_q · 1 / (1 + e^(-y_q))

  with res = x · res_W + res_b the residual projection. Every operation is the exact one on the extended reals; the
  divisor 128 and ε are kept as the binary words both programs print, since the same word denotes the same number on
  both sides.
-/
import Idealize.ShloMosaic.PureOps.Ideal
import Idealize.ShloMosaic.Lib.ValueIdx

noncomputable section

namespace Cert.Gcn

open Idealize.ShloMosaic Idealize.ShloMosaic.ValueIdx

/-- Node features in: 50000 nodes, 64 features. -/
abbrev SIn : Shape := ⟨2, ![50000, 64]⟩
/-- A projection's weights: 64 by 128. -/
abbrev SWt : Shape := ⟨2, ![64, 128]⟩
/-- One value per output feature. -/
abbrev SFeat : Shape := ⟨1, ![128]⟩
/-- Node features out: 50000 nodes, 128 features. -/
abbrev SOut : Shape := ⟨2, ![50000, 128]⟩

/-- Entry (p, q) of the product x · w: the sum over the 64 input features. -/
def projAt (x : FVec Ideal SIn .f32) (w : FVec Ideal SWt .f32) (p : Fin 50000) (q : Fin 128) : EReal :=
  ∑ k : Fin 64, x (ix2 p k) * w (ix2 k q)

/-- The product x · w as an array. -/
def proj (x : FVec Ideal SIn .f32) (w : FVec Ideal SWt .f32) : FVec Ideal SOut .f32 :=
  fun i => projAt x w (i 0) (i 1)

/-- The product with a bias added along the feature axis: x · w + b. -/
def projBias (x : FVec Ideal SIn .f32) (w : FVec Ideal SWt .f32) (b : FVec Ideal SFeat .f32) : FVec Ideal SOut .f32 :=
  fun i => projAt x w (i 0) (i 1) + b (ix1 (i 1))

/-- Entry k of node p's aggregated row with the bias added. -/
def rowIn (agg : FVec Ideal SOut .f32) (b : FVec Ideal SFeat .f32) (p : Fin 50000) (k : Fin 128) : EReal :=
  agg (ix2 p k) + b (ix1 k)

/-- The mean of node p's row over its 128 features. -/
def rowMean (agg : FVec Ideal SOut .f32) (b : FVec Ideal SFeat .f32) (p : Fin 50000) : EReal :=
  Ideal.div (∑ k : Fin 128, rowIn agg b p k) (Ideal.ofBits .f32 0x43000000#32)

/-- The (biased) variance of node p's row. -/
def rowVar (agg : FVec Ideal SOut .f32) (b : FVec Ideal SFeat .f32) (p : Fin 50000) : EReal :=
  Ideal.div (∑ k : Fin 128, (rowIn agg b p k - rowMean agg b p) * (rowIn agg b p k - rowMean agg b p))
    (Ideal.ofBits .f32 0x43000000#32)

/-- The normalised, scaled and shifted entry plus the residual: what the final gate is applied to. -/
def gateIn (agg : FVec Ideal SOut .f32) (b lnw lnb : FVec Ideal SFeat .f32) (res : FVec Ideal SOut .f32)
    (p : Fin 50000) (q : Fin 128) : EReal :=
  (rowIn agg b p q - rowMean agg b p) * Ideal.rsqrt (rowVar agg b p + Ideal.ofBits .f32 0x3727C5AC#32) * lnw (ix1 q)
    + lnb (ix1 q) + res (ix2 p q)

/-- Entry (p, q) of the block's result: y · sigmoid y. -/
def finishAt (agg : FVec Ideal SOut .f32) (b lnw lnb : FVec Ideal SFeat .f32) (res : FVec Ideal SOut .f32)
    (p : Fin 50000) (q : Fin 128) : EReal :=
  gateIn agg b lnw lnb res p q * Ideal.logistic (gateIn agg b lnw lnb res p q)

/-- The block's result as an array. -/
def finish (agg : FVec Ideal SOut .f32) (b lnw lnb : FVec Ideal SFeat .f32) (res : FVec Ideal SOut .f32) :
    FVec Ideal SOut .f32 :=
  fun i => finishAt agg b lnw lnb res (i 0) (i 1)

theorem proj_ix2 (x : FVec Ideal SIn .f32) (w : FVec Ideal SWt .f32) (p : Fin 50000) (q : Fin 128) :
    proj x w (ix2 p q) = projAt x w p q := rfl

theorem projBias_ix2 (x : FVec Ideal SIn .f32) (w : FVec Ideal SWt .f32) (b : FVec Ideal SFeat .f32) (p : Fin 50000)
    (q : Fin 128) : projBias x w b (ix2 p q) = projAt x w p q + b (ix1 q) := rfl

theorem finish_ix2 (agg : FVec Ideal SOut .f32) (b lnw lnb : FVec Ideal SFeat .f32) (res : FVec Ideal SOut .f32)
    (p : Fin 50000) (q : Fin 128) : finish agg b lnw lnb res (ix2 p q) = finishAt agg b lnw lnb res p q := rfl

end Cert.Gcn

end
-- ==== Proof.HostChain.lean ====
/-
  The graph aggregation between the two regions, carried as ONE function of the projected rows and the edge list.

  Both programs aggregate with the same host operations: the self-loops are appended to the edge list, each node's
  degree is counted by a scatter-add of ones, the inverse square roots of the degrees (zero where a degree is zero) are
  gathered at both ends of every edge and multiplied, the projected row of each edge's source is gathered and scaled by
  that weight, and the scaled rows are scatter-added at the edges' targets. The kernel's program feeds it the first
  region's product array, the reference its own product; nothing here opens a scatter or a gather.
-/
import proofs.«164052_j83915071030244_1_alg».proof.Proof.Gen.KernelIdeal.Frame
import proofs.«164052_j83915071030244_1_alg».proof.Proof.RefRead
import Idealize.ShloMosaic.Lib.StableHlo.Run

set_option maxRecDepth 16384

noncomputable section

namespace Cert.GcnHost

open Idealize.ShloMosaic Idealize.ShloMosaic.TcCoe Idealize.SL.Sem Idealize.ShloMosaic.StableHlo

variable {F : FTy → Type} [FloatOps F]

/-- The aggregated rows of a projected array `xw` over the edge list `e` (self-loops appended, symmetric degree
    normalisation), spelt with the reference's stages. -/
def aggOf (xw : (⟨Cert.ReferenceIdeal.S50000x128, .f32⟩ : BufTy).Contents (Elt F)) (e : (⟨Cert.ReferenceIdeal.S2x800000, .i32⟩ : BufTy).Contents (Elt F)) :
    (⟨Cert.ReferenceIdeal.S50000x128, .f32⟩ : BufTy).Contents (Elt F) :=
  Host.scatterAdd Cert.ReferenceIdeal.scatter_S50000x128_S850000x1_S850000x128_1_0_0_1 (Cert.ReferenceIdeal.Read.val_main_v43 (F := F))
    (Cert.ReferenceIdeal.Read.val_main_v44 (F := F) e)
    (mulf (Host.gather Cert.ReferenceIdeal.gather_S50000x128_S850000x1_S850000x128_1_0_n_n_0_1_1128 xw (Cert.ReferenceIdeal.Read.val_main_v38 (F := F) e))
      (Cert.ReferenceIdeal.Read.val_main_v41 (F := F) e))

/-- The reference aggregates its own product. -/
theorem ref_agg (x0 : (⟨Cert.ReferenceIdeal.S50000x64, .f32⟩ : BufTy).Contents (Elt F)) (x1 : (⟨Cert.ReferenceIdeal.S2x800000, .i32⟩ : BufTy).Contents (Elt F))
    (x2 : (⟨Cert.ReferenceIdeal.S64x128, .f32⟩ : BufTy).Contents (Elt F)) :
    Cert.ReferenceIdeal.Read.val_main_v45 (F := F) x0 x1 x2 = aggOf (Cert.ReferenceIdeal.Read.val_main_v32 (F := F) x0 x2) x1 := by
  unfold Cert.ReferenceIdeal.Read.val_main_v45 Cert.ReferenceIdeal.Read.val_main_v42 Cert.ReferenceIdeal.Read.val_main_v39 aggOf
  rfl

end Cert.GcnHost

namespace Cert.KernelIdeal.Gen

open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Between the regions the kernel's program aggregates the first region's product array over the edge list. -/
theorem W4_agg (c : Dev nD) :
    W4 m ρ c (Proc.devRef .tc main_v45)
      = Cert.GcnHost.aggOf (W1 m ρ c (Proc.devRef .tc main_v0_0)) (W1 m ρ c (Proc.devRef .tc main_arg1)) := by
  show StableHlo.after hostOps1_2 (StableHlo.after hostOps1_1 (StableHlo.after hostOps1 (W1 m ρ c))) (Proc.devRef .tc main_v45) = _
  after_results_simp <;> rfl

end Cert.KernelIdeal.Gen

end
-- ==== Proof.RefValue.lean ====
/-
  The reference program's stages read as the block's entry-by-entry functions.
  The two host matrix products are the plain sums over the 64 shared features; from the aggregated rows on, the reference
  adds the bias, takes each row's mean and variance over its 128 features (a host sum from the initial value 0), scales,
  shifts, adds the residual projection and multiplies by 1 / (1 + e^(-y)), which is the logistic function of y.
-/
import proofs.«164052_j83915071030244_1_alg».proof.Proof.RefRead
import proofs.«164052_j83915071030244_1_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Read Cert.Gcn

/-! ### The two matrix products -/

/-- The left operand of a product's entry (p, q) at the shared feature k is x (p, k). -/
theorem lidx32_ix2 (p : Fin 50000) (q : Fin 128) (k : Fin 64) : lidx_main_v32 (ix2 p q) k = ix2 p k :=
  funext fun a => Fin.ext (by match a with | ⟨0, _⟩ => rfl | ⟨1, _⟩ => rfl)

/-- The right operand of a product's entry (p, q) at the shared feature k is W (k, q). -/
theorem ridx32_ix2 (p : Fin 50000) (q : Fin 128) (k : Fin 64) : ridx_main_v32 (ix2 p q) k = ix2 k q :=
  funext fun a => Fin.ext (by match a with | ⟨0, _⟩ => rfl | ⟨1, _⟩ => rfl)

theorem lidx73_ix2 (p : Fin 50000) (q : Fin 128) (k : Fin 64) : lidx_main_v73 (ix2 p q) k = ix2 p k :=
  funext fun a => Fin.ext (by match a with | ⟨0, _⟩ => rfl | ⟨1, _⟩ => rfl)

theorem ridx73_ix2 (p : Fin 50000) (q : Fin 128) (k : Fin 64) : ridx_main_v73 (ix2 p q) k = ix2 k q :=
  funext fun a => Fin.ext (by match a with | ⟨0, _⟩ => rfl | ⟨1, _⟩ => rfl)

/-- A per-feature vector broadcast along the node axis is read at the feature coordinate alone. -/
theorem bcast75_ix2 (p : Fin 50000) (q : Fin 128) : idx_main_v74 (idx_main_v75 (ix2 p q)) = ix1 q :=
  funext fun a => Fin.ext (by match a with | ⟨0, _⟩ => rfl)

/-- The reference's first matrix product is x · W. -/
theorem ref_proj (x0 : FVec Ideal SIn .f32) (x2 : FVec Ideal SWt .f32) :
    val_main_v32 (F := Ideal) x0 x2 = proj x0 x2 := by
  funext i
  obtain ⟨p, q, rfl⟩ : ∃ (p : Fin 50000) (q : Fin 128), i = ix2 p q := ⟨i 0, i 1, eq_ix2 i⟩
  rw [proj_ix2, val_main_v32_apply]
  unfold projAt
  simp only [lidx32_ix2, ridx32_ix2]

/-- The reference's residual projection is x · res_W + res_b. -/
theorem ref_res (x0 : FVec Ideal SIn .f32) (x6 : FVec Ideal SWt .f32) (x7 : FVec Ideal SFeat .f32) :
    val_main_v76 (F := Ideal) x0 x6 x7 = projBias x0 x6 x7 := by
  funext i
  obtain ⟨p, q, rfl⟩ : ∃ (p : Fin 50000) (q : Fin 128), i = ix2 p q := ⟨i 0, i 1, eq_ix2 i⟩
  rw [projBias_ix2, val_main_v76_apply, val_main_v73_apply, val_main_v75_apply, val_main_v74_apply]
  unfold projAt
  simp only [lidx73_ix2, ridx73_ix2, bcast75_ix2, Ideal.addf_def]

/-! ### From the aggregated rows to the result

  Each stage of the reference is read at an entry (p, q) (or at node p for the per-row statistics, which the reference keeps
  in a column of width one) and identified with the block's function of the same name. -/

section finish

variable (x0 : FVec Ideal SIn .f32) (x1 : (⟨S2x800000, .i32⟩ : BufTy).Contents (Elt Ideal)) (x2 : FVec Ideal SWt .f32)
  (x3 x4 x5 : FVec Ideal SFeat .f32) (x6 : FVec Ideal SWt .f32) (x7 : FVec Ideal SFeat .f32)

/-- The bias, broadcast along the node axis, is read at the feature coordinate. -/
theorem bcast47_ix2 (p : Fin 50000) (q : Fin 128) : idx_main_v46 (idx_main_v47 (ix2 p q)) = ix1 q :=
  funext fun a => Fin.ext (by match a with | ⟨0, _⟩ => rfl)

/-- The scale, broadcast along the node axis, is read at the feature coordinate. -/
theorem bcast68_ix2 (p : Fin 50000) (q : Fin 128) : idx_main_v67 (idx_main_v68 (ix2 p q)) = ix1 q :=
  funext fun a => Fin.ext (by match a with | ⟨0, _⟩ => rfl)

/-- The shift, broadcast along the node axis, is read at the feature coordinate. -/
theorem bcast71_ix2 (p : Fin 50000) (q : Fin 128) : idx_main_v70 (idx_main_v71 (ix2 p q)) = ix1 q :=
  funext fun a => Fin.ext (by match a with | ⟨0, _⟩ => rfl)

/-- Term k of node p's first row sum is the row's entry k. -/
theorem sum49_ix1 (p : Fin 50000) (k : Fin 128) : idx_main_v49 (ix1 p) k = ix2 p k :=
  funext fun a => Fin.ext (by match a with | ⟨0, _⟩ => rfl | ⟨1, _⟩ => rfl)

/-- Term k of node p's second row sum is the row's entry k. -/
theorem sum56_ix1 (p : Fin 50000) (k : Fin 128) : idx_main_v56 (ix1 p) k = ix2 p k :=
  funext fun a => Fin.ext (by match a with | ⟨0, _⟩ => rfl | ⟨1, _⟩ => rfl)

/-- A width-one column's entry for node p is the per-node value at p. -/
theorem col50_ix2 (p : Fin 50000) (z : Fin 1) : idx_main_v50 (ix2 p z) = ix1 p :=
  funext fun a => Fin.ext (by match a with | ⟨0, _⟩ => rfl)

theorem col57_ix2 (p : Fin 50000) (z : Fin 1) : idx_main_v57 (ix2 p z) = ix1 p :=
  funext fun a => Fin.ext (by match a with | ⟨0, _⟩ => rfl)

/-- A width-one column broadcast along the feature axis is read at the node coordinate. -/
theorem row53_ix2 (p : Fin 50000) (q : Fin 128) : idx_main_v53 (ix2 p q) = ix2 p (0 : Fin 1) :=
  funext fun a => Fin.ext (by match a with | ⟨0, _⟩ => rfl | ⟨1, _⟩ => rfl)

theorem row60_ix2 (p : Fin 50000) (q : Fin 128) : idx_main_v60 (ix2 p q) = ix2 p (0 : Fin 1) :=
  funext fun a => Fin.ext (by match a with | ⟨0, _⟩ => rfl | ⟨1, _⟩ => rfl)

theorem row65_ix2 (p : Fin 50000) (q : Fin 128) : idx_main_v65 (ix2 p q) = ix2 p (0 : Fin 1) :=
  funext fun a => Fin.ext (by match a with | ⟨0, _⟩ => rfl | ⟨1, _⟩ => rfl)

/-- The aggregated row with the bias added. -/
theorem ref_rowIn (p : Fin 50000) (k : Fin 128) :
    val_main_v48 (F := Ideal) x0 x1 x2 x3 (ix2 p k) = rowIn (val_main_v45 (F := Ideal) x0 x1 x2) x3 p k := by
  rw [val_main_v48_apply, val_main_v47_apply, val_main_v46_apply, bcast47_ix2]
  unfold rowIn
  simp only [Ideal.addf_def]

/-- The row's mean: the host sum starts from the word of 0, so it is the plain sum of the 128 entries, over 128. -/
theorem ref_rowMean (p : Fin 50000) (z : Fin 1) :
    val_main_v52 (F := Ideal) x0 x1 x2 x3 (ix2 p z) = rowMean (val_main_v45 (F := Ideal) x0 x1 x2) x3 p := by
  rw [val_main_v52_apply, val_main_v50_apply, col50_ix2, val_main_v49_apply, val_main_v51_apply, val_main_cst_11_apply,
    val_main_cst_10_apply]
  unfold rowMean
  simp only [sum49_ix1, ref_rowIn, Ideal.hostDivf_def, Ideal.ofBits_def, Ideal.ofBits_zero_f32, zero_add]

/-- An entry's deviation from its row's mean, as the variance sum uses it. -/
theorem ref_dev54 (p : Fin 50000) (k : Fin 128) :
    val_main_v54 (F := Ideal) x0 x1 x2 x3 (ix2 p k)
      = rowIn (val_main_v45 (F := Ideal) x0 x1 x2) x3 p k - rowMean (val_main_v45 (F := Ideal) x0 x1 x2) x3 p := by
  rw [val_main_v54_apply, val_main_v53_apply, row53_ix2, ref_rowIn, ref_rowMean]
  simp only [Ideal.subf_def]

/-- A term of the variance sum: the squared deviation of entry k from the row's mean. -/
theorem ref_sq55 (p : Fin 50000) (k : Fin 128) :
    val_main_v55 (F := Ideal) x0 x1 x2 x3 (ix2 p k)
      = (rowIn (val_main_v45 (F := Ideal) x0 x1 x2) x3 p k - rowMean (val_main_v45 (F := Ideal) x0 x1 x2) x3 p)
        * (rowIn (val_main_v45 (F := Ideal) x0 x1 x2) x3 p k - rowMean (val_main_v45 (F := Ideal) x0 x1 x2) x3 p) := by
  rw [val_main_v55_apply, ref_dev54]
  simp only [Ideal.mulf_def]

/-- The row's variance: the sum of the squared deviations from the same mean, over 128. -/
theorem ref_rowVar (p : Fin 50000) (z : Fin 1) :
    val_main_v59 (F := Ideal) x0 x1 x2 x3 (ix2 p z) = rowVar (val_main_v45 (F := Ideal) x0 x1 x2) x3 p := by
  rw [val_main_v59_apply, val_main_v57_apply, col57_ix2, val_main_v56_apply, val_main_v58_apply, val_main_cst_13_apply,
    val_main_cst_12_apply]
  unfold rowVar
  have hs : (∑ k : Fin 128, val_main_v55 (F := Ideal) x0 x1 x2 x3 (idx_main_v56 (ix1 p) k))
      = ∑ k : Fin 128, (rowIn (val_main_v45 (F := Ideal) x0 x1 x2) x3 p k - rowMean (val_main_v45 (F := Ideal) x0 x1 x2) x3 p)
          * (rowIn (val_main_v45 (F := Ideal) x0 x1 x2) x3 p k - rowMean (val_main_v45 (F := Ideal) x0 x1 x2) x3 p) :=
    Finset.sum_congr rfl fun k _ => by rw [sum56_ix1, ref_sq55]
  rw [hs]
  simp only [Ideal.hostDivf_def, Ideal.ofBits_def, Ideal.ofBits_zero_f32, zero_add]

/-- The entry normalised, scaled, shifted, with the residual added. -/
theorem ref_gateIn (p : Fin 50000) (q : Fin 128) :
    val_main_v77 (F := Ideal) x0 x1 x2 x3 x4 x5 x6 x7 (ix2 p q)
      = gateIn (val_main_v45 (F := Ideal) x0 x1 x2) x3 x4 x5 (val_main_v76 (F := Ideal) x0 x6 x7) p q := by
  rw [val_main_v77_apply, val_main_v72_apply, val_main_v69_apply, val_main_v66_apply, val_main_v61_apply,
    val_main_v60_apply, row60_ix2, ref_rowIn, ref_rowMean,
    val_main_v65_apply, row65_ix2, val_main_v64_apply, val_main_v63_apply, ref_rowVar, val_main_v62_apply,
    val_main_cst_14_apply,
    val_main_v68_apply, val_main_v67_apply, bcast68_ix2, val_main_v71_apply, val_main_v70_apply, bcast71_ix2]
  unfold gateIn
  simp only [Ideal.addf_def, Ideal.subf_def, Ideal.mulf_def, Ideal.hostUnary_rsqrt_def, Ideal.ofBits_def]

end finish

/-- The reference's result is the finished block of its own aggregated rows and residual projection. -/
theorem ref_finish (x0 : FVec Ideal SIn .f32) (x1 : (⟨S2x800000, .i32⟩ : BufTy).Contents (Elt Ideal)) (x2 : FVec Ideal SWt .f32)
    (x3 x4 x5 : FVec Ideal SFeat .f32) (x6 : FVec Ideal SWt .f32) (x7 : FVec Ideal SFeat .f32) :
    val_main_v84 (F := Ideal) x0 x1 x2 x3 x4 x5 x6 x7
      = finish (val_main_v45 (F := Ideal) x0 x1 x2) x3 x4 x5 (val_main_v76 (F := Ideal) x0 x6 x7) := by
  funext i
  obtain ⟨p, q, rfl⟩ : ∃ (p : Fin 50000) (q : Fin 128), i = ix2 p q := ⟨i 0, i 1, eq_ix2 i⟩
  rw [finish_ix2, val_main_v84_apply, val_main_v83_apply, val_main_v82_apply, val_main_cst_16_apply, val_main_v81_apply,
    val_main_v80_apply, val_main_cst_15_apply, val_main_v79_apply, val_main_v78_apply, ref_gateIn]
  unfold finishAt Ideal.logistic
  simp only [Ideal.mulf_def, Ideal.hostDivf_def, Ideal.addf_def, Ideal.hostUnary_exp_def, Ideal.hostNegf_def,
    Ideal.negf_def, Ideal.ofBits_def, Ideal.ofBits_one_f32]

end Cert.ReferenceIdeal.RefValue

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0Value.lean ====
/-
  The first region's two output arrays as whole-array functions of the arrays it is entered with.
  Each of the ten grid points writes back rows 5000 t … 5000 t + 4999 of both outputs; on the extended reals the
  change of float format before the product is the identity and the product into the zero array is the plain sum over
  the 64 shared features, so the first output is x · W and the second x · res_W + res_b, entry by entry.

  The steps: entry (p, q) of what the body stores is Σ_k xblock (p, k) · wblock (k, q) (plus the bias at q for the second
  output); at point t the node-feature block is rows 5000 t … of x and the weight and bias blocks are the whole arrays,
  so the stored block is block t of the whole-array function; row r of either output lies in the block of point
  r / 5000, so the ten blocks fill the array and it ends holding that function.
-/
import proofs.«164052_j83915071030244_1_alg».proof.Proof.Gen.KernelIdeal.Frame
import proofs.«164052_j83915071030244_1_alg».proof.Proof.Spec
import proofs.«164052_j83915071030244_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0Value

open Idealize.ShloMosaic Idealize.ShloMosaic.TcCoe Idealize.SL.Sem Idealize.ShloMosaic.ValueIdx
open Cert.KernelIdeal Cert.KernelIdeal.Gen Cert.Gcn
open Idealize.ShloMosaic.Pipeline (Dat Cfg Window)

variable (V : (c : Dev nD) → (b : Ref sig .tc) → Buf (Elt Ideal) ((c : Thread nD τ).loc b))

/-- Entry (p, q) of the block product: the sum over the 64 shared features. -/
theorem pay2_apply (x0 : Vec Ideal S5000x64 .f32) (x1 : Vec Ideal S64x128 .f32) (p : Fin 5000) (q : Fin 128) :
    k0_pay2 x0 x1 (ix2 p q) = ∑ k : Fin 64, x0 (ix2 p k) * x1 (ix2 k q) := by
  unfold k0_pay2 k0_pay1
  exact Idealize.ShloMosaic.PlainDot.matmul_zero_apply 5000 64 128
    (truncf .bf16 x0 bitsLt_bf16_f32) (truncf .bf16 x1 bitsLt_bf16_f32) p q

/-- Entry (p, q) of the block product with the bias row added. -/
theorem pay3_apply (x0 : Vec Ideal S5000x64 .f32) (x2 : Vec Ideal S64x128 .f32) (x3 : Vec Ideal S128 .f32)
    (p : Fin 5000) (q : Fin 128) :
    k0_pay3 x0 x2 x3 (ix2 p q) = (∑ k : Fin 64, x0 (ix2 p k) * x2 (ix2 k q)) + x3 (ix1 q) := by
  unfold k0_pay3 k0_pay1
  rw [addf_apply]
  congr 1
  · exact Idealize.ShloMosaic.PlainDot.matmul_zero_apply 5000 64 128
      (truncf .bf16 x0 bitsLt_bf16_f32) (truncf .bf16 x2 bitsLt_bf16_f32) p q
  · rw [broadcastTo_1b_ab_apply, shapeCast_a_1a_apply]

/-! ## Where each window's block sits at a grid point -/

theorem zeros2 : (![0, 0] : Fin 2 → Nat) = fun _ => 0 := funext fun a => by fin_cases a <;> rfl

theorem zeros1 : (![0] : Fin 1 → Nat) = fun _ => 0 := funext fun a => by fin_cases a <;> rfl

/-- The printed index maps over the ten grid points: the node-feature block and both output blocks are row-block t,
    all columns; the two weight matrices and the bias are read whole at every point. -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks, read off the arrays -/

/-- Row p of the node-feature block at point t is row 5000 t + p of x. -/
theorem x_block (c : Dev nD) (t : Fin cfg0.N) (p : Fin 5000) (k : Fin 64) (r : Fin 50000)
    (hr : r.val = 5000 * t.val + p.val) :
    iblk0 V c 0 t (ix2 p k) = V c main_arg0 (ix2 r k) := by
  show V c main_arg0 (((cfg0.win 0).blk t).view.emb (ix2 p k)) = V c main_arg0 (ix2 r k)
  refine congrArg (V c main_arg0) ?_
  obtain ⟨e0, e1, -⟩ := blocks_at t
  funext a; apply Fin.ext
  match a with
  | ⟨0, _⟩ => show win0_0.index t (0 : Fin 2) * 5000 + 1 * p.val = r.val; omega
  | ⟨1, _⟩ => show win0_0.index t (1 : Fin 2) * 64 + 1 * k.val = k.val; omega

/-- The block of W at any point is W. -/
theorem w_block (c : Dev nD) (t : Fin cfg0.N) (k : Fin 64) (q : Fin 128) :
    iblk0 V c 1 t (ix2 k q) = V c main_arg2 (ix2 k q) := by
  show V c main_arg2 (((cfg0.win 1).blk t).view.emb (ix2 k q)) = V c main_arg2 (ix2 k q)
  refine congrArg (V c main_arg2) ?_
  obtain ⟨-, -, e0, e1, -⟩ := blocks_at t
  funext a; apply Fin.ext
  match a with
  | ⟨0, _⟩ => show win0_1.index t (0 : Fin 2) * 64 + 1 * k.val = k.val; omega
  | ⟨1, _⟩ => show win0_1.index t (1 : Fin 2) * 128 + 1 * q.val = q.val; omega

/-- The block of res_W at any point is res_W. -/
theorem rw_block (c : Dev nD) (t : Fin cfg0.N) (k : Fin 64) (q : Fin 128) :
    iblk0 V c 2 t (ix2 k q) = V c main_arg6 (ix2 k q) := by
  show V c main_arg6 (((cfg0.win 2).blk t).view.emb (ix2 k q)) = V c main_arg6 (ix2 k q)
  refine congrArg (V c main_arg6) ?_
  obtain ⟨-, -, -, -, e0, e1, -⟩ := blocks_at t
  funext a; apply Fin.ext
  match a with
  | ⟨0, _⟩ => show win0_2.index t (0 : Fin 2) * 64 + 1 * k.val = k.val; omega
  | ⟨1, _⟩ => show win0_2.index t (1 : Fin 2) * 128 + 1 * q.val = q.val; omega

/-- The block of res_b at any point is res_b. -/
theorem rb_block (c : Dev nD) (t : Fin cfg0.N) (q : Fin 128) :
    iblk0 V c 3 t (ix1 q) = V c main_arg7 (ix1 q) := by
  show V c main_arg7 (((cfg0.win 3).blk t).view.emb (ix1 q)) = V c main_arg7 (ix1 q)
  refine congrArg (V c main_arg7) ?_
  obtain ⟨-, -, -, -, -, -, e0, -⟩ := blocks_at t
  funext a; apply Fin.ext
  match a with
  | ⟨0, _⟩ => show win0_3.index t (0 : Fin 1) * 128 + 1 * q.val = q.val; omega

/-- Entry (p, q) of the first output's block at point t sits at (5000 t + p, q) of the array. -/
theorem xw_at (t : Fin cfg0.N) (p : Fin 5000) (q : Fin 128) (r : Fin 50000) (hr : r.val = 5000 * t.val + p.val) :
    ((cfg0.win 4).blk t).view.emb (ix2 p q) = ix2 r q := by
  obtain ⟨-, -, -, -, -, -, -, e0, e1, -⟩ := blocks_at t
  funext a; apply Fin.ext
  match a with
  | ⟨0, _⟩ => show win0_4.index t (0 : Fin 2) * 5000 + 1 * p.val = r.val; omega
  | ⟨1, _⟩ => show win0_4.index t (1 : Fin 2) * 128 + 1 * q.val = q.val; omega

/-- Entry (p, q) of the second output's block at point t sits at (5000 t + p, q) of the array. -/
theorem res_at (t : Fin cfg0.N) (p : Fin 5000) (q : Fin 128) (r : Fin 50000) (hr : r.val = 5000 * t.val + p.val) :
    ((cfg0.win 5).blk t).view.emb (ix2 p q) = ix2 r q := by
  obtain ⟨-, -, -, -, -, -, -, -, -, e0, e1⟩ := blocks_at t
  funext a; apply Fin.ext
  match a with
  | ⟨0, _⟩ => show win0_5.index t (0 : Fin 2) * 5000 + 1 * p.val = r.val; omega
  | ⟨1, _⟩ => show win0_5.index t (1 : Fin 2) * 128 + 1 * q.val = q.val; omega

/-! ## What each point writes back -/

/-- Point t writes back, as the first output's block, block t of x · W. -/
theorem flushed_xw (c : Dev nD) (t : Fin cfg0.N) :
    (dat0 V c).flushed 4 t
      = ((cfg0.win 4).blk t).view.read (Elt Ideal) (proj (V c main_arg0) (V c main_arg2)) := by
  show (cfg0.win 4).cut (grid0.coords t) ((dat0 V c).after 4 t) = _
  rw [after0_4]
  unfold out0_4
  rw [View.canon_unit_zero zeros2]
  simp only [View.ld_unit_zero (S := S5000x64) zeros2, View.ld_unit_zero (S := S64x128) zeros2]
  funext j
  obtain ⟨p, q, rfl⟩ : ∃ (p : Fin 5000) (q : Fin 128), j = ix2 p q := ⟨j 0, j 1, eq_ix2 j⟩
  have ht : t.val < 10 := t.isLt
  have hr : 5000 * t.val + p.val < 50000 := by have := p.isLt; omega
  show k0_pay2 (iblk0 V c 0 t) (iblk0 V c 1 t) (ix2 p q)
    = proj (V c main_arg0) (V c main_arg2) (((cfg0.win 4).blk t).view.emb (ix2 p q))
  refine (pay2_apply (iblk0 V c 0 t) (iblk0 V c 1 t) p q).trans ?_
  rw [xw_at t p q ⟨5000 * t.val + p.val, hr⟩ rfl, proj_ix2]
  unfold projAt
  refine Finset.sum_congr rfl fun k _ => ?_
  rw [x_block V c t p k ⟨5000 * t.val + p.val, hr⟩ rfl, w_block V c t k q]

/-- Point t writes back, as the second output's block, block t of x · res_W + res_b. -/
theorem flushed_res (c : Dev nD) (t : Fin cfg0.N) :
    (dat0 V c).flushed 5 t
      = ((cfg0.win 5).blk t).view.read (Elt Ideal)
          (projBias (V c main_arg0) (V c main_arg6) (V c main_arg7)) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S64x128) zeros2,
    View.ld_unit_zero (S := S128) zeros1]
  funext j
  obtain ⟨p, q, rfl⟩ : ∃ (p : Fin 5000) (q : Fin 128), j = ix2 p q := ⟨j 0, j 1, eq_ix2 j⟩
  have ht : t.val < 10 := t.isLt
  have hr : 5000 * t.val + p.val < 50000 := by have := p.isLt; omega
  show k0_pay3 (iblk0 V c 0 t) (iblk0 V c 2 t) (iblk0 V c 3 t) (ix2 p q)
    = projBias (V c main_arg0) (V c main_arg6) (V c main_arg7) (((cfg0.win 5).blk t).view.emb (ix2 p q))
  refine (pay3_apply (iblk0 V c 0 t) (iblk0 V c 2 t) (iblk0 V c 3 t) p q).trans ?_
  rw [res_at t p q ⟨5000 * t.val + p.val, hr⟩ rfl, projBias_ix2, rb_block V c t q]
  unfold projAt
  refine congrArg (· + V c main_arg7 (ix1 q)) ?_
  refine Finset.sum_congr rfl fun k _ => ?_
  rw [x_block V c t p k ⟨5000 * t.val + p.val, hr⟩ rfl, rw_block V c t k q]

/-! ## The ten blocks fill each output array -/

/-- An index of the first output is in point t's block iff each coordinate is in the block's range on its axis. -/
theorem mem_xw (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v0_0).slice (win0_4.rect t)).set ↔ _
  rw [View.set_slice_whole, Rect.mem_set_unit]
  exact Iff.rfl

/-- The same for the second output. -/
theorem mem_res (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v0_1).slice (win0_5.rect t)).set ↔ _
  rw [View.set_slice_whole, Rect.mem_set_unit]
  exact Iff.rfl

/-- Row r of the first output is written by the point r / 5000. -/
theorem cover_xw (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, show (i 0).val / 5000 < 10 by omega⟩, rfl⟩
  obtain ⟨-, -, -, -, -, -, -, e0, e1, -⟩ := blocks_at t
  refine ⟨t, flush0_4 t, ?_⟩
  rw [mem_xw]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- Row r of the second output is written by the point r / 5000. -/
theorem cover_res (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, show (i 0).val / 5000 < 10 by omega⟩, rfl⟩
  obtain ⟨-, -, -, -, -, -, -, -, -, e0, e1⟩ := blocks_at t
  refine ⟨t, flush0_5 t, ?_⟩
  rw [mem_res]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 128 ≤ (i 1).val ∧ (i 1).val < win0_5.index t (1 : Fin 2) * 128 + 128
    omega

/-! ## The two arrays after the region -/

/-- After the first region the first output array is the product x · W of the arrays the region is entered with. -/
theorem region0_xw (c : Dev nD) :
    (dat0 V c).arrAt 4 cfg0.N = proj (V c main_arg0) (V c main_arg2) :=
  (dat0 V c).arrAt_eq_of_cover 4 (proj (V c main_arg0) (V c main_arg2)) (fun t _ => flushed_xw V c t) cover_xw

/-- After the first region the second output array is x · res_W + res_b. -/
theorem region0_res (c : Dev nD) :
    (dat0 V c).arrAt 5 cfg0.N = projBias (V c main_arg0) (V c main_arg6) (V c main_arg7) :=
  (dat0 V c).arrAt_eq_of_cover 5 (projBias (V c main_arg0) (V c main_arg6) (V c main_arg7))
    (fun t _ => flushed_res V c t) cover_res

end Cert.KernelIdeal.Region0Value

end
-- ==== Proof.Region1Value.lean ====
/-
  The second region's output array as a whole-array function of the arrays it is entered with.
  Each of the ten grid points writes back rows 5000 t … 5000 t + 4999: the bias is added to the aggregated row, the row
  is normalised by its own mean and variance over the 128 features, scaled, shifted, the residual row added and the
  result gated by its own logistic. Every entry of the output depends only on its own row of the two row-blocked
  inputs, so the ten blocks are the restrictions of one function of the whole arrays.
-/
import proofs.«164052_j83915071030244_1_alg».proof.Proof.Gen.KernelIdeal.Frame
import proofs.«164052_j83915071030244_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1Value

open Idealize.ShloMosaic Idealize.ShloMosaic.TcCoe Idealize.SL.Sem Idealize.ShloMosaic.ValueIdx
open Cert.KernelIdeal Cert.KernelIdeal.Gen Cert.Gcn
open Idealize.ShloMosaic.Pipeline (Dat Cfg Window)

variable (V : (c : Dev nD) → (b : Ref sig .tc) → Buf (Elt Ideal) ((c : Thread nD τ).loc b))

/-! ## Layout steps of the body read at an index -/

/-- A vector of 5000 row values cast to a column reads, at (p, u), the value of row p. -/
theorem column_apply {α : Type} (x : S5000.Idx → α) (h : S5000.ShapeCasts S5000x1) (p : Fin 5000) (u : Fin 1) :
    shapeCast S5000x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column of 5000 row values broadcast over the 128 features reads, at (p, q), the value of row p. -/
theorem column_bcast_apply {α : Type} (x : S5000x1.Idx → α) (h : S5000x1.Broadcasts S5000x128) (p : Fin 5000) (q : Fin 128) :
    broadcastTo S5000x128 x h (ix2 p q) = x (ix2 p (0 : Fin 1)) := by
  refine broadcastTo_apply x h (ix2 p q) (ix2 p (0 : Fin 1)) fun ax => ?_
  match ax with
  | ⟨0, _⟩ =>
    show p.val = if (5000 : Nat) = 1 then 0 else p.val
    split
    · omega
    · rfl
  | ⟨1, _⟩ => rfl

/-- A feature vector cast to one row and broadcast over the 5000 rows reads, at (p, q), its entry q. -/
theorem feature_bcast_apply {α : Type} (x : S128.Idx → α) (h : S128.ShapeCasts S1x128) (h' : S1x128.Broadcasts S5000x128)
    (p : Fin 5000) (q : Fin 128) :
    broadcastTo S5000x128 (shapeCast S1x128 x h) h' (ix2 p q) = x (ix1 q) :=
  (broadcastTo_1b_ab_apply _ h' p q).trans (shapeCast_a_1a_apply x h 0 q)

/-- The sum over the feature axis of a 5000 by 128 block, read at row p, is the sum of that row's 128 entries. -/
theorem row_sum_apply (x : FVec Ideal S5000x128 .f32) (h : S5000x128.Reduces [1] S5000) (hφ : FKind.Formats .f32)
    (hacc : (0x00000000#32 : BitVec 32) = 0x00000000#32) (p : Fin 5000) :
    multiReduction (F := Ideal) .add [1] S5000 x 0x00000000#32 h hφ hacc (ix1 p) = ∑ k : Fin 128, x (ix2 p k) := by
  refine (Ideal.multiReduction_add_single x 0x00000000#32 h hφ hacc (ix1 p)).trans ?_
  show ∑ k : Fin 128, x (h.lift (ix1 p) k) = _
  refine Finset.sum_congr rfl fun k _ => congrArg x (funext fun a => Fin.ext ?_)
  match a with
  | ⟨0, _⟩ => rfl
  | ⟨1, _⟩ => rfl

/-! ## One block: the finished row, entry by entry -/

/-- Entry k of block row p with the bias added. -/
def blkRowIn (agg : FVec Ideal S5000x128 .f32) (b : FVec Ideal S128 .f32) (p : Fin 5000) (k : Fin 128) : EReal :=
  agg (ix2 p k) + b (ix1 k)

/-- The mean of block row p over its 128 features. -/
def blkMean (agg : FVec Ideal S5000x128 .f32) (b : FVec Ideal S128 .f32) (p : Fin 5000) : EReal :=
  Ideal.div (∑ k : Fin 128, blkRowIn agg b p k) (Ideal.ofBits .f32 0x43000000#32)

/-- The (biased) variance of block row p. -/
def blkVar (agg : FVec Ideal S5000x128 .f32) (b : FVec Ideal S128 .f32) (p : Fin 5000) : EReal :=
  Ideal.div (∑ k : Fin 128, (blkRowIn agg b p k - blkMean agg b p) * (blkRowIn agg b p k - blkMean agg b p))
    (Ideal.ofBits .f32 0x43000000#32)

/-- The normalised, scaled and shifted entry of block row p plus the residual. -/
def blkGate (agg : FVec Ideal S5000x128 .f32) (b lnw lnb : FVec Ideal S128 .f32) (res : FVec Ideal S5000x128 .f32)
    (p : Fin 5000) (q : Fin 128) : EReal :=
  (blkRowIn agg b p q - blkMean agg b p) * Ideal.rsqrt (blkVar agg b p + Ideal.ofBits .f32 0x3727C5AC#32) * lnw (ix1 q)
    + lnb (ix1 q) + res (ix2 p q)

/-! ## The body's value as vectors: the biased rows, a row mean kept as a column, the gate's argument -/

/-- The aggregated block with the bias added along the feature axis. -/
def biased (v0 : FVec Ideal S5000x128 .f32) (v2 : FVec Ideal S128 .f32) : FVec Ideal S5000x128 .f32 :=
  addf (shapeCast S5000x128 v0 shapeCasts_S5000x128_S5000x128)
    (broadcastTo S5000x128 (shapeCast S1x128 v2 shapeCasts_S128_S1x128) broadcasts_S1x128_S5000x128)

/-- The sum of each row of a block divided by 128, kept as a column. -/
def meanCol (x : FVec Ideal S5000x128 .f32) : FVec Ideal S5000x1 .f32 :=
  divf (shapeCast S5000x1 (multiReduction .add [1] S5000 x 0x00000000#32 reduces_S5000x128_S5000 (.inl rfl) rfl)
      shapeCasts_S5000_S5000x1)
    (broadcast S5000x1 (Scalar.ofBits .f32 0x43000000#32))

/-- The rows centred on their means. -/
def centred (v0 : FVec Ideal S5000x128 .f32) (v2 : FVec Ideal S128 .f32) : FVec Ideal S5000x128 .f32 :=
  subf (biased v0 v2) (broadcastTo S5000x128 (meanCol (biased v0 v2)) broadcasts_S5000x1_S5000x128)

/-- What the final gate is applied to, as a vector. -/
def gateVec (v0 : FVec Ideal S5000x128 .f32) (v2 v24 v28 : FVec Ideal S128 .f32) (v32 : FVec Ideal S5000x128 .f32) :
    FVec Ideal S5000x128 .f32 :=
  addf (addf (mulf (mulf (centred v0 v2)
        (broadcastTo S5000x128 (rsqrt (addf (meanCol (mulf (centred v0 v2) (centred v0 v2)))
          (broadcast S5000x1 (Scalar.ofBits .f32 0x3727C5AC#32)))) broadcasts_S5000x1_S5000x128))
        (broadcastTo S5000x128 (shapeCast S1x128 v24 shapeCasts_S128_S1x128) broadcasts_S1x128_S5000x128))
      (broadcastTo S5000x128 (shapeCast S1x128 v28 shapeCasts_S128_S1x128) broadcasts_S1x128_S5000x128))
    (shapeCast S5000x128 v32 shapeCasts_S5000x128_S5000x128)

/-- The body's payload is the gate's argument times its logistic. -/
theorem payload_eq (v0 : FVec Ideal S5000x128 .f32) (v2 v24 v28 : FVec Ideal S128 .f32) (v32 : FVec Ideal S5000x128 .f32) :
    k1_pay1 (F := Ideal) v0 v2 v24 v28 v32 = mulf (gateVec v0 v2 v24 v28 v32) (logistic (gateVec v0 v2 v24 v28 v32)) := rfl

theorem biased_apply (v0 : FVec Ideal S5000x128 .f32) (v2 : FVec Ideal S128 .f32) (p : Fin 5000) (k : Fin 128) :
    biased v0 v2 (ix2 p k) = blkRowIn v0 v2 p k := by
  unfold biased blkRowIn
  rw [addf_apply, shapeCast_self, feature_bcast_apply]

theorem meanCol_apply (x : FVec Ideal S5000x128 .f32) (p : Fin 5000) (u : Fin 1) :
    meanCol x (ix2 p u) = Ideal.div (∑ k : Fin 128, x (ix2 p k)) (Ideal.ofBits .f32 0x43000000#32) := by
  unfold meanCol
  rw [divf_apply, column_apply]
  exact congrArg₂ Ideal.div (row_sum_apply x _ _ _ p) rfl

theorem centred_apply (v0 : FVec Ideal S5000x128 .f32) (v2 : FVec Ideal S128 .f32) (p : Fin 5000) (k : Fin 128) :
    centred v0 v2 (ix2 p k) = blkRowIn v0 v2 p k - blkMean v0 v2 p := by
  unfold centred blkMean
  rw [subf_apply, column_bcast_apply, meanCol_apply, biased_apply]
  simp only [biased_apply]

theorem gateVec_apply (v0 : FVec Ideal S5000x128 .f32) (v2 v24 v28 : FVec Ideal S128 .f32) (v32 : FVec Ideal S5000x128 .f32)
    (p : Fin 5000) (q : Fin 128) : gateVec v0 v2 v24 v28 v32 (ix2 p q) = blkGate v0 v2 v24 v28 v32 p q := by
  unfold gateVec blkGate blkVar
  rw [addf_apply, addf_apply, mulf_apply, mulf_apply, shapeCast_self, feature_bcast_apply, feature_bcast_apply,
    column_bcast_apply, centred_apply]
  show _ * Ideal.rsqrt (meanCol (mulf (centred v0 v2) (centred v0 v2)) (ix2 p 0) + Ideal.ofBits .f32 0x3727C5AC#32) * _ + _ + _ = _
  rw [meanCol_apply]
  simp only [mulf_apply, centred_apply]

/-- THE PAYLOAD AT AN INDEX: entry (p, q) of what the body stores is the finished entry of block row p. -/
theorem payload_apply (v0 : FVec Ideal S5000x128 .f32) (v2 v24 v28 : FVec Ideal S128 .f32) (v32 : FVec Ideal S5000x128 .f32)
    (p : Fin 5000) (q : Fin 128) :
    k1_pay1 (F := Ideal) v0 v2 v24 v28 v32 (ix2 p q)
      = blkGate v0 v2 v24 v28 v32 p q * Ideal.logistic (blkGate v0 v2 v24 v28 v32 p q) := by
  rw [payload_eq]
  show gateVec v0 v2 v24 v28 v32 (ix2 p q) * Ideal.logistic (gateVec v0 v2 v24 v28 v32 (ix2 p q)) = _
  rw [gateVec_apply]

/-! ## From a block's rows to the arrays' rows -/

/-- When block row p of the two row-blocked inputs is row r of their arrays and the three feature vectors are the
    arrays' own, the gate's argument on block row p is the specification's on row r. -/
theorem blkGate_eq_gateIn (agg res : FVec Ideal SOut .f32) (b lnw lnb : FVec Ideal SFeat .f32)
    (x0 x2 : FVec Ideal S5000x128 .f32) (x1 x3 x4 : FVec Ideal S128 .f32) (r : Fin 50000) (p : Fin 5000)
    (h0 : ∀ k : Fin 128, x0 (ix2 p k) = agg (ix2 r k)) (h2 : ∀ k : Fin 128, x2 (ix2 p k) = res (ix2 r k))
    (h1 : ∀ k : Fin 128, x1 (ix1 k) = b (ix1 k)) (h3 : ∀ k : Fin 128, x3 (ix1 k) = lnw (ix1 k))
    (h4 : ∀ k : Fin 128, x4 (ix1 k) = lnb (ix1 k)) (q : Fin 128) :
    blkGate x0 x1 x3 x4 x2 p q = gateIn agg b lnw lnb res r q := by
  unfold blkGate gateIn blkVar rowVar blkMean rowMean blkRowIn rowIn
  simp only [h0, h1, h2, h3, h4]

/-! ## The grid: ten points, point t on row block t -/

theorem points_count : cfg1.N = 10 := by decide

theorem zero2 : (![0, 0] : Fin 2 → Nat) = fun _ => 0 := funext fun a => by fin_cases a <;> rfl
theorem zero1 : (![0] : Fin 1 → Nat) = fun _ => 0 := funext fun a => by fin_cases a; rfl

/-- The printed index maps, decided over the grid: the three row-blocked windows sit on row block t and column block 0,
    the three feature windows on block 0. -/
theorem block_index : ∀ t : Fin cfg1.N,
    win1_0.index t (0 : Fin 2) = t.val ∧ win1_0.index t (1 : Fin 2) = 0
    ∧ win1_2.index t (0 : Fin 2) = t.val ∧ win1_2.index t (1 : Fin 2) = 0
    ∧ win1_5.index t (0 : Fin 2) = t.val ∧ win1_5.index t (1 : Fin 2) = 0
    ∧ win1_1.index t (0 : Fin 1) = 0 ∧ win1_3.index t (0 : Fin 1) = 0 ∧ win1_4.index t (0 : Fin 1) = 0 :=
  (by decide +kernel : ∀ t : Fin grid1.N, _)

/-- WHAT POINT t WRITES BACK is block t of the finished array of the arrays the region is entered with. -/
theorem flushed_eq (c : Dev nD) (t : Fin cfg1.N) :
    (dat1 V c).flushed 5 t = ((cfg1.win 5).blk t).view.read (Elt Ideal)
      (finish (V c main_v45) (V c main_arg3) (V c main_arg4) (V c main_arg5) (V c main_v0_1)) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S128) zero1]
  obtain ⟨e00, e01, e20, e21, e50, e51, e1, e3, e4⟩ := block_index t
  have ht : t.val < 10 := lt_of_lt_of_eq t.isLt points_count
  funext j
  obtain ⟨p, q, rfl⟩ : ∃ (p : Fin 5000) (q : Fin 128), j = ix2 p q := ⟨j 0, j 1, eq_ix2 j⟩
  have hp : p.val < 5000 := p.isLt
  have hr : 5000 * t.val + p.val < 50000 := by omega
  show k1_pay1 (F := Ideal) (iblk1 V c 0 t) (iblk1 V c 1 t) (iblk1 V c 3 t) (iblk1 V c 4 t) (iblk1 V c 2 t) (ix2 p q)
    = finish (V c main_v45) (V c main_arg3) (V c main_arg4) (V c main_arg5) (V c main_v0_1)
        (((cfg1.win 5).blk t).view.emb (ix2 p q))
  have hi : ((cfg1.win 5).blk t).view.emb (ix2 p q) = ix2 (⟨5000 * t.val + p.val, hr⟩ : Fin 50000) q := by
    funext a; apply Fin.ext
    match a with
    | ⟨0, _⟩ => show win1_5.index t (0 : Fin 2) * 5000 + 1 * p.val = 5000 * t.val + p.val; omega
    | ⟨1, _⟩ => show win1_5.index t (1 : Fin 2) * 128 + 1 * q.val = q.val; omega
  rw [hi, finish_ix2]
  refine (payload_apply (iblk1 V c 0 t) (iblk1 V c 1 t) (iblk1 V c 3 t) (iblk1 V c 4 t) (iblk1 V c 2 t) p q).trans ?_
  have h0 : ∀ k : Fin 128, (iblk1 V c 0 t : FVec Ideal S5000x128 .f32) (ix2 p k)
      = (V c main_v45 : FVec Ideal SOut .f32) (ix2 (⟨5000 * t.val + p.val, hr⟩ : Fin 50000) k) := fun k => by
    show V c main_v45 (((cfg1.win 0).blk t).view.emb (ix2 p k)) = V c main_v45 (ix2 (⟨5000 * t.val + p.val, hr⟩ : Fin 50000) k)
    refine congrArg (V c main_v45) (funext fun a => Fin.ext ?_)
    match a with
    | ⟨0, _⟩ => show win1_0.index t (0 : Fin 2) * 5000 + 1 * p.val = 5000 * t.val + p.val; omega
    | ⟨1, _⟩ => show win1_0.index t (1 : Fin 2) * 128 + 1 * k.val = k.val; omega
  have h2 : ∀ k : Fin 128, (iblk1 V c 2 t : FVec Ideal S5000x128 .f32) (ix2 p k)
      = (V c main_v0_1 : FVec Ideal SOut .f32) (ix2 (⟨5000 * t.val + p.val, hr⟩ : Fin 50000) k) := fun k => by
    show V c main_v0_1 (((cfg1.win 2).blk t).view.emb (ix2 p k)) = V c main_v0_1 (ix2 (⟨5000 * t.val + p.val, hr⟩ : Fin 50000) k)
    refine congrArg (V c main_v0_1) (funext fun a => Fin.ext ?_)
    match a with
    | ⟨0, _⟩ => show win1_2.index t (0 : Fin 2) * 5000 + 1 * p.val = 5000 * t.val + p.val; omega
    | ⟨1, _⟩ => show win1_2.index t (1 : Fin 2) * 128 + 1 * k.val = k.val; omega
  have h1 : ∀ k : Fin 128, (iblk1 V c 1 t : FVec Ideal S128 .f32) (ix1 k) = (V c main_arg3 : FVec Ideal SFeat .f32) (ix1 k) := fun k => by
    show V c main_arg3 (((cfg1.win 1).blk t).view.emb (ix1 k)) = V c main_arg3 (ix1 k)
    refine congrArg (V c main_arg3) (funext fun a => Fin.ext ?_)
    match a with
    | ⟨0, _⟩ => show win1_1.index t (0 : Fin 1) * 128 + 1 * k.val = k.val; omega
  have h3 : ∀ k : Fin 128, (iblk1 V c 3 t : FVec Ideal S128 .f32) (ix1 k) = (V c main_arg4 : FVec Ideal SFeat .f32) (ix1 k) := fun k => by
    show V c main_arg4 (((cfg1.win 3).blk t).view.emb (ix1 k)) = V c main_arg4 (ix1 k)
    refine congrArg (V c main_arg4) (funext fun a => Fin.ext ?_)
    match a with
    | ⟨0, _⟩ => show win1_3.index t (0 : Fin 1) * 128 + 1 * k.val = k.val; omega
  have h4 : ∀ k : Fin 128, (iblk1 V c 4 t : FVec Ideal S128 .f32) (ix1 k) = (V c main_arg5 : FVec Ideal SFeat .f32) (ix1 k) := fun k => by
    show V c main_arg5 (((cfg1.win 4).blk t).view.emb (ix1 k)) = V c main_arg5 (ix1 k)
    refine congrArg (V c main_arg5) (funext fun a => Fin.ext ?_)
    match a with
    | ⟨0, _⟩ => show win1_4.index t (0 : Fin 1) * 128 + 1 * k.val = k.val; omega
  exact congrArg (fun g => g * Ideal.logistic g)
    (blkGate_eq_gateIn (V c main_v45) (V c main_v0_1) (V c main_arg3) (V c main_arg4) (V c main_arg5)
      (iblk1 V c 0 t) (iblk1 V c 2 t) (iblk1 V c 1 t) (iblk1 V c 3 t) (iblk1 V c 4 t)
      (⟨5000 * t.val + p.val, hr⟩ : Fin 50000) p h0 h2 h1 h3 h4 q)

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v46).slice (win1_5.rect t)).set ↔ _
  rw [View.set_slice_whole, Rect.mem_set_unit]
  exact Iff.rfl

/-- Every row of the array is in the block of the point its row block names: row r in point r / 5000's. -/
theorem covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by rw [points_count]; omega⟩, rfl⟩
  obtain ⟨-, -, -, -, e50, e51, -, -, -⟩ := block_index t
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 128 ≤ (i 1).val ∧ (i 1).val < win1_5.index t (1 : Fin 2) * 128 + 128
    omega

/-- After the second region its output array is the finished block of the arrays the region is entered with. -/
theorem region1_value (c : Dev nD) :
    (dat1 V c).arrAt 5 cfg1.N
      = finish (V c main_v45) (V c main_arg3) (V c main_arg4) (V c main_arg5) (V c main_v0_1) :=
  (dat1 V c).arrAt_eq_of_cover 5 _ (fun t _ => flushed_eq V c t) covered

end Cert.KernelIdeal.Region1Value

end
-- ==== Proof.KernelValue.lean ====
/-
  The kernel program's result array, read through its two regions and the aggregation between them.

  The first region leaves x · W and x · res_W + res_b in its two output arrays; the host operations between the regions
  aggregate the first over the edge list and touch neither the second nor the bias, scale and shift vectors; the second
  region finishes every row of the aggregate against the residual. So the result buffer ends at
  finish (aggOf (x · W) edges) b ln_w ln_b (x · res_W + res_b) of the launch contents.
-/
import proofs.«164052_j83915071030244_1_alg».proof.Proof.Gen.KernelIdeal.Frame
import proofs.«164052_j83915071030244_1_alg».proof.Proof.Spec
import proofs.«164052_j83915071030244_1_alg».proof.Proof.HostChain
import proofs.«164052_j83915071030244_1_alg».proof.Proof.Region0Value
import proofs.«164052_j83915071030244_1_alg».proof.Proof.Region1Value
import Idealize.ShloMosaic.Lib.Pipeline.Value
import Idealize.ShloMosaic.Lib.StableHlo.Run

set_option maxRecDepth 16384

noncomputable section

namespace Cert.KernelIdeal.Gen

open Idealize.ShloMosaic Idealize.ShloMosaic.TcCoe Idealize.SL.Sem Idealize.ShloMosaic.StableHlo
open Cert.Gcn Cert.GcnHost
open Idealize.ShloMosaic.Pipeline (Dat Cfg Window)

variable (m : (ℓ : Loc nD τ sig) → Buf (Elt Ideal) ℓ) (ρ : Dev nD → PrngReg)

/-- The edge list reaches the aggregation as launched: the first region does not write it. -/
theorem W1_edges (c : Dev nD) : W1 m ρ c (Proc.devRef .tc main_arg1) = m ((c : Thread nD τ).loc main_arg1) :=
  (W1_of_ne m ρ c main_arg1 (by decide)).trans rfl

/-- After the first region its first output array holds x · W of the launch contents. -/
theorem W1_xw (c : Dev nD) :
    W1 m ρ c (Proc.devRef .tc main_v0_0) = proj (m ((c : Thread nD τ).loc main_arg0)) (m ((c : Thread nD τ).loc main_arg2)) :=
  (W1_arr m ρ c 4).trans (Cert.KernelIdeal.Region0Value.region0_xw (V0 m ρ) c)

/-- After the first region its second output array holds x · res_W + res_b of the launch contents. -/
theorem W1_res (c : Dev nD) :
    W1 m ρ c (Proc.devRef .tc main_v0_1)
      = projBias (m ((c : Thread nD τ).loc main_arg0)) (m ((c : Thread nD τ).loc main_arg6)) (m ((c : Thread nD τ).loc main_arg7)) :=
  (W1_arr m ρ c 5).trans (Cert.KernelIdeal.Region0Value.region0_res (V0 m ρ) c)

/-- No host operation between the regions writes the residual projection. -/
theorem W4_res (c : Dev nD) : W4 m ρ c (Proc.devRef .tc main_v0_1) = W1 m ρ c (Proc.devRef .tc main_v0_1) := by
  show StableHlo.after hostOps1_2 (StableHlo.after hostOps1_1 (StableHlo.after hostOps1 (W1 m ρ c))) (Proc.devRef .tc main_v0_1) = _
  after_results_simp <;> rfl

/-- An input array of the second region that the run ends with as launched was entered as launched. -/
theorem V4_of_W5 (c : Dev nD) (w : Fin cfg1.W) (hw : (cfg1.win w).isOut = false) :
    V4 m ρ c (Pipeline.arrRef spec1 w) = W5 m ρ c (Proc.devRef .tc (Pipeline.arrRef spec1 w)) :=
  ((W5_arr m ρ c w).trans (((dat1 (V4 m ρ) c).arrAt_in w hw _).trans (A_eq1 (V4 m ρ) c w))).symm

theorem V4_b (c : Dev nD) : V4 m ρ c main_arg3 = m ((c : Thread nD τ).loc main_arg3) :=
  (V4_of_W5 m ρ c 1 rfl).trans (W5_main_arg3 m ρ c)
theorem V4_lnw (c : Dev nD) : V4 m ρ c main_arg4 = m ((c : Thread nD τ).loc main_arg4) :=
  (V4_of_W5 m ρ c 3 rfl).trans (W5_main_arg4 m ρ c)
theorem V4_lnb (c : Dev nD) : V4 m ρ c main_arg5 = m ((c : Thread nD τ).loc main_arg5) :=
  (V4_of_W5 m ρ c 4 rfl).trans (W5_main_arg5 m ρ c)

/-- THE KERNEL'S VALUE: the result buffer ends at the finished block of the aggregated product rows. -/
theorem result_value (c : Dev nD) :
    W5 m ρ c (Proc.devRef .tc main_v46)
      = finish (aggOf (proj (m ((c : Thread nD τ).loc main_arg0)) (m ((c : Thread nD τ).loc main_arg2))) (m ((c : Thread nD τ).loc main_arg1)))
          (m ((c : Thread nD τ).loc main_arg3)) (m ((c : Thread nD τ).loc main_arg4)) (m ((c : Thread nD τ).loc main_arg5))
          (projBias (m ((c : Thread nD τ).loc main_arg0)) (m ((c : Thread nD τ).loc main_arg6)) (m ((c : Thread nD τ).loc main_arg7))) := by
  refine (W5_arr m ρ c 5).trans ((Cert.KernelIdeal.Region1Value.region1_value (V4 m ρ) c).trans ?_)
  have e45 : V4 m ρ c main_v45 = aggOf (proj (m ((c : Thread nD τ).loc main_arg0)) (m ((c : Thread nD τ).loc main_arg2))) (m ((c : Thread nD τ).loc main_arg1)) := by
    refine (W4_agg m ρ c).trans ?_
    rw [W1_xw, W1_edges]
  have eres : V4 m ρ c main_v0_1 = projBias (m ((c : Thread nD τ).loc main_arg0)) (m ((c : Thread nD τ).loc main_arg6)) (m ((c : Thread nD τ).loc main_arg7)) :=
    (W4_res m ρ c).trans (W1_res m ρ c)
  rw [e45, eres, V4_b, V4_lnw, V4_lnb]

end Cert.KernelIdeal.Gen

end
-- ==== Proof.lean ====
/-
  The certificate of the residual graph-convolution block: the kernel program (two tiled regions around a host
  aggregation) against its reference, over the extended reals.

  Both programs compute, for every node p and output feature q,
      y = (a_q - mean a) · (var a + ε)^(-1/2) · ln_w q + ln_b q + (x · res_W + res_b)(p, q),   out = y · logistic y,
  where a = agg (p, ·) + b is node p's aggregated row of x · W with the bias added. The kernel's first region forms the
  two products block by block (a change of float format is the identity on the extended reals, and a product into the
  zero array is the plain sum over the shared axis), the aggregation is the same host operations in both programs and
  is carried as one function, and the kernel's second region finishes the rows block by block where the reference
  works on whole arrays; its logistic is the reference's 1 / (1 + e^(-y)) by definition. No law that needs finite
  operands is used, so the precondition is never opened.
  The three frames are the generated ones (the reference's is its run with the result dropped); the ideal pass rewrote
  nothing, so there is nothing to preserve.
-/
import proofs.«164052_j83915071030244_1_alg».proof.Defs
import proofs.«164052_j83915071030244_1_alg».proof.Proof.Gen.Kernel
import proofs.«164052_j83915071030244_1_alg».proof.Proof.Gen.Kernel.Skeleton
import proofs.«164052_j83915071030244_1_alg».proof.Proof.Gen.Kernel.Launch
import proofs.«164052_j83915071030244_1_alg».proof.Proof.Gen.Kernel.Points
import proofs.«164052_j83915071030244_1_alg».proof.Proof.Gen.Kernel.Frame
import proofs.«164052_j83915071030244_1_alg».proof.Proof.Gen.KernelIdeal
import proofs.«164052_j83915071030244_1_alg».proof.Proof.Gen.KernelIdeal.Skeleton
import proofs.«164052_j83915071030244_1_alg».proof.Proof.Gen.KernelIdeal.Launch
import proofs.«164052_j83915071030244_1_alg».proof.Proof.Gen.KernelIdeal.Points
import proofs.«164052_j83915071030244_1_alg».proof.Proof.Gen.KernelIdeal.Frame
import proofs.«164052_j83915071030244_1_alg».proof.Proof.Gen.ReferenceIdeal
import proofs.«164052_j83915071030244_1_alg».proof.Proof.Gen.Pre_finite_inputs
import proofs.«164052_j83915071030244_1_alg».proof.Proof.RefRun
import proofs.«164052_j83915071030244_1_alg».proof.Proof.RefRead
import proofs.«164052_j83915071030244_1_alg».proof.Proof.Spec
import proofs.«164052_j83915071030244_1_alg».proof.Proof.HostChain
import proofs.«164052_j83915071030244_1_alg».proof.Proof.RefValue
import proofs.«164052_j83915071030244_1_alg».proof.Proof.KernelRun
import proofs.«164052_j83915071030244_1_alg».proof.Proof.KernelValue
import Idealize.ShloMosaic.Adequacy
import Idealize.ShloMosaic.Init

noncomputable section

namespace Cert.Proof.Claims

open Idealize.ShloMosaic Idealize.ShloMosaic.TcCoe Idealize.SL.Sem
open Cert.Gcn Cert.GcnHost

/-- THE REFERENCE'S VALUE: its result term is the finished block of the aggregated product rows. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v84 (F := Ideal) m' c
      = finish (aggOf (proj (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg2)))
          (m' ((c.tc : Thread Cert.ReferenceIdeal.nD Cert.ReferenceIdeal.τ).loc Cert.ReferenceIdeal.main_arg1)))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (projBias (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))) := by
  rw [Cert.ReferenceIdeal.Read.val_main_v84_eq, Cert.ReferenceIdeal.RefValue.ref_finish, Cert.GcnHost.ref_agg,
    Cert.ReferenceIdeal.RefValue.ref_proj, Cert.ReferenceIdeal.RefValue.ref_res]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments both programs end with the same array: the finished block of
    the aggregated rows of x · W, with residual x · res_W + res_b. -/
theorem algebraic : Cert.algebraic_KernelIdeal_ReferenceIdeal := by
  intro m ρ m' ρ' _ hagree
  refine ⟨_, (θ_run Cert.KernelIdeal.defs _ _).mono (fun r h c => ⟨(h c).1.trans (Cert.KernelIdeal.Gen.result_value m ρ c), (h c).2⟩)
    (Cert.KernelIdeal.Gen.run_named (F := Ideal) m ρ), ?_⟩
  refine (θ_run Cert.ReferenceIdeal.defs _ _).mono (fun r h c => ⟨(h c).1.trans ?_, (h c).2⟩)
    (Cert.ReferenceIdeal.Value.run (F := Ideal) m' ρ')
  rw [ref_value, (hagree c).1, (hagree c).2.1, (hagree c).2.2.1, (hagree c).2.2.2.1, (hagree c).2.2.2.2.1,
    (hagree c).2.2.2.2.2.1, (hagree c).2.2.2.2.2.2.1, (hagree c).2.2.2.2.2.2.2]

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
